-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 106
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S100000x1, .f32⟩
  | .hbm, ⟨102, _⟩ => ⟨S100000x128, .f32⟩
  | .hbm, ⟨103, _⟩ => ⟨S100000x128, .f32⟩
  | .hbm, ⟨104, _⟩ => ⟨S1x64, .f32⟩
  | .hbm, ⟨105, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_9 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_11 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_c_15 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v35) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v71) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x128, .f32⟩
  | .hbm, ⟨107, _⟩ => ⟨S_, .f32⟩
  | .hbm, ⟨108, _⟩ => ⟨S100000x128, .f32⟩
  | .hbm, ⟨109, _⟩ => ⟨S1600000x1, .i32⟩
  | .hbm, ⟨110, _⟩ => ⟨S100000x128, .f32⟩
  | .hbm, ⟨111, _⟩ => ⟨S100000x1, .f32⟩
  | .hbm, ⟨112, _⟩ => ⟨S100000x128, .f32⟩
  | .hbm, ⟨113, _⟩ => ⟨S100000x128, .f32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_9 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_11 : Ref sig .tc := ⟨.hbm, 72, rfl⟩
abbrev main_v44 : Ref sig .tc := ⟨.hbm, 73, rfl⟩
abbrev main_v45 : Ref sig .tc := ⟨.hbm, 74, rfl⟩
abbrev main_c_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call3_cst : Ref sig .tc := ⟨.hbm, 92, rfl⟩
abbrev main_call3_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Dense.lean ====
/-
  A dense layer read at an index, over the extended reals.

  `lin a w β` is the array whose entry (p, q) is the sum over k of a(p, k) * w(k, q), plus the bias β(q);
  `linRelu` is the same clamped below by zero.  Two spellings of a layer are shown to be these functions:

  * a block's spelling: both operands passed through a change of float format (the identity on the extended
    reals), multiplied into a zero accumulator, and a one-row bias array broadcast over the rows and added;
  * a whole array's spelling: a general contraction of axis 1 against axis 0, and a bias vector broadcast to one
    row and then over the rows.

  Both sums range over the contraction's own index type; `PlainDot.sum_eq` carries them to the plain sum over k.
-/
import proofs.«134260_j32607391711820_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Dense

open Idealize.ShloMosaic Idealize.ShloMosaic.ValueIdx

variable {R K C : Nat}

/-- Entry (p, q) of a dense layer: the row p of `a` against the column q of `w`, plus the bias at q. -/
def lin (a : (⟨2, ![R, K]⟩ : Shape).Idx → EReal) (w : (⟨2, ![K, C]⟩ : Shape).Idx → EReal) (β : Fin C → EReal) :
    (⟨2, ![R, C]⟩ : Shape).Idx → EReal :=
  fun i => (∑ k : Fin K, a (ix2 (i 0) k) * w (ix2 k (i 1))) + β (i 1)

/-- A dense layer followed by the clamp at zero. -/
def linRelu (a : (⟨2, ![R, K]⟩ : Shape).Idx → EReal) (w : (⟨2, ![K, C]⟩ : Shape).Idx → EReal) (β : Fin C → EReal) :
    (⟨2, ![R, C]⟩ : Shape).Idx → EReal :=
  fun i => max (lin a w β i) 0

theorem lin_ix2 (a : (⟨2, ![R, K]⟩ : Shape).Idx → EReal) (w : (⟨2, ![K, C]⟩ : Shape).Idx → EReal) (β : Fin C → EReal)
    (p : Fin R) (q : Fin C) : lin a w β (ix2 p q) = (∑ k : Fin K, a (ix2 p k) * w (ix2 k q)) + β q := rfl

/-- The block's spelling of the product and bias, at (p, q). -/
theorem block_apply (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (x0 : FVec Ideal ⟨2, ![R, K]⟩ .f32) (x1 : FVec Ideal ⟨2, ![K, C]⟩ .f32) (x2 : FVec Ideal ⟨2, ![1, C]⟩ .f32)
    (h0 : (⟨2, ![R, K]⟩ : Shape).ShapeCasts ⟨2, ![R, K]⟩) (h2 : (⟨2, ![1, C]⟩ : Shape).ShapeCasts ⟨2, ![1, C]⟩)
    (hb : (⟨2, ![1, C]⟩ : Shape).Broadcasts ⟨2, ![R, C]⟩) (hbits : FTy.bf16.bits < FTy.f32.bits)
    (p : Fin R) (q : Fin C) :
    addf (matmul d none (truncf .bf16 (shapeCast ⟨2, ![R, K]⟩ x0 h0) hbits) (truncf .bf16 x1 hbits)
        (constant ⟨2, ![R, C]⟩ .f32 0x00000000#32))
      (broadcastTo ⟨2, ![R, C]⟩ (shapeCast ⟨2, ![1, C]⟩ x2 h2) hb) (ix2 p q)
    = lin x0 x1 (fun c => x2 (ix2 (0 : Fin 1) c)) (ix2 p q) := by
  rw [lin_ix2, addf_apply, shapeCast_self, shapeCast_self, broadcastTo_1b_ab_apply]
  refine congrArg (· + x2 (ix2 (0 : Fin 1) q)) ?_
  refine (Ideal.matmul_constant_zero_apply d none _ _ (ix2 p q)).trans ?_
  exact PlainDot.sum_eq d hlb hln hlc hrb hrn hrc x0 x1 p q

/-- The whole array's spelling of the product and bias, at (p, q). -/
theorem whole_apply (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (a : FVec Ideal ⟨2, ![R, K]⟩ .f32) (w : FVec Ideal ⟨2, ![K, C]⟩ .f32) (b : FVec Ideal ⟨1, ![C]⟩ .f32)
    (dims1 : Fin 1 → Fin 2) (hd1 : dims1 0 = 1) (h1 : (⟨1, ![C]⟩ : Shape).BroadcastsInDim ⟨2, ![1, C]⟩ dims1)
    (dims2 : Fin 2 → Fin 2) (hd20 : dims2 0 = 0) (hd21 : dims2 1 = 1) (h2 : (⟨2, ![1, C]⟩ : Shape).BroadcastsInDim ⟨2, ![R, C]⟩ dims2)
    (p : Fin R) (q : Fin C) :
    addf (Host.dotGeneral d none a w) (broadcastInDim ⟨2, ![R, C]⟩ dims2 h2 (broadcastInDim ⟨2, ![1, C]⟩ dims1 h1 b)) (ix2 p q)
    = lin a w (fun c => b (ix1 c)) (ix2 p q) := by
  rw [lin_ix2, addf_apply]
  have hbias : broadcastInDim ⟨2, ![R, C]⟩ dims2 h2 (broadcastInDim ⟨2, ![1, C]⟩ dims1 h1 b) (ix2 p q) = b (ix1 q) := by
    rw [broadcastInDim_apply dims2 h2 _ (ix2 p q) (ix2 (0 : Fin 1) q) (by
      intro ax
      match ax with
      | ⟨0, _⟩ => rfl
      | ⟨1, _⟩ =>
        show q.val = if C = 1 then 0 else ((ix2 p q : (⟨2, ![R, C]⟩ : Shape).Idx) (dims2 1)).val
        rw [hd21]
        show q.val = if C = 1 then 0 else q.val
        split
        · have := q.isLt; omega
        · rfl)]
    rw [broadcastInDim_apply dims1 h1 b (ix2 (0 : Fin 1) q) (ix1 q) (by
      intro ax
      match ax with
      | ⟨0, _⟩ =>
        show q.val = if C = 1 then 0 else ((ix2 (0 : Fin 1) q : (⟨2, ![1, C]⟩ : Shape).Idx) (dims1 0)).val
        rw [hd1]
        show q.val = if C = 1 then 0 else q.val
        split
        · have := q.isLt; omega
        · rfl)]
  rw [hbias]
  refine congrArg (· + b (ix1 q)) ?_
  show FloatOps.dotGeneral d none _ a w (ix2 p q) = _
  refine (Ideal.dotGeneral_apply d none _ a w (ix2 p q)).trans ?_
  exact PlainDot.sum_eq d hlb hln hlc hrb hrn hrc a w p q

end Dense

end
-- ==== Proof.Region0.lean ====
/-
  The first product's region: what its result array holds when the region ends.

  The region walks the 100000 rows of its input in 20 blocks of 5000 rows.  At block t it reads rows
  5000 t … 5000 t + 4999 of the input, the whole weight matrix and the one-row bias, and writes back the block's
  rows of the result: row p of the block against column q of the weights, plus the bias at q, clamped below by
  zero.  A row of that block is a row of the whole input, so what block t writes back is block t of ONE function
  of the whole arrays, `Dense.linRelu`; the 20 blocks tile the result array, which therefore ends holding it.
-/
import proofs.«134260_j32607391711820_1_alg».proof.Proof.Gen.KernelIdeal.Frame
import proofs.«134260_j32607391711820_1_alg».proof.Proof.Dense

set_option maxRecDepth 16384

noncomputable section

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The value the body stores, at (p, q): the dense layer of the three loaded blocks, clamped at zero. -/
theorem stored_apply (x0 : Vec Ideal S5000x128 .f32) (x1 : Vec Ideal S128x128 .f32) (x2 : Vec Ideal S1x128 .f32)
    (p : Fin 5000) (q : Fin 128) :
    k0_pay1 x0 x1 x2 (ix2 p q) = Dense.linRelu x0 x1 (fun c => x2 (ix2 (0 : Fin 1) c)) (ix2 p q) := by
  have h := Dense.block_apply dot_S5000x128_S128x128_S5000x128_1_0_0_1_n_n rfl rfl rfl rfl rfl rfl x0 x1 x2
    shapeCasts_S5000x128_S5000x128 shapeCasts_S1x128_S1x128 broadcasts_S1x128_S5000x128 bitsLt_bf16_f32 p q
  unfold k0_pay1
  show max _ _ = max _ 0
  refine congrArg₂ max h ?_
  show Ideal.ofBits .f32 0x00000000#32 = 0
  exact Ideal.ofBits_zero_f32

/-- The arrays the region finds, and its three input blocks at point t, at their literal types. -/
abbrev xarr (c : Dev nD) : S100000x128.Idx → EReal := V c main_v35
abbrev warr (c : Dev nD) : S128x128.Idx → EReal := V c main_arg1
abbrev barr (c : Dev nD) : S1x128.Idx → EReal := V c main_v36
abbrev xblk (c : Dev nD) (t : Fin cfg0.N) : S5000x128.Idx → EReal := iblk0 V c 0 t
abbrev wblk (c : Dev nD) (t : Fin cfg0.N) : S128x128.Idx → EReal := iblk0 V c 1 t
abbrev bblk (c : Dev nD) (t : Fin cfg0.N) : S1x128.Idx → EReal := iblk0 V c 2 t

/-- The array the region leaves in its result: the clamped dense layer of the arrays it found. -/
abbrev result (c : Dev nD) : S100000x128.Idx → EReal :=
  Dense.linRelu (xarr V c) (warr V c) (fun q => barr V c (ix2 (0 : Fin 1) q))

/-- The result window's block index at point t is (t, 0); the input window's is the same; the weights' and the
    bias's block is always the first. -/
theorem block_indices : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What point t writes back is block t of `result`. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin, View.ld_unit_zero (S := S1x128) origin]
  obtain ⟨e30, e31, e00, e01, e10, e11, e20, e21⟩ := block_indices t
  funext j
  obtain ⟨p, q, rfl⟩ : ∃ (p : Fin 5000) (q : Fin 128), j = ix2 p q := ⟨j 0, j 1, eq_ix2 j⟩
  refine (stored_apply (xblk V c t) (wblk V c t) (bblk V c t) p q).trans ?_
  have hN : cfg0.N = 20 := N_0
  have hP : t.val * 5000 + p.val < 100000 := by have := t.isLt; have := p.isLt; omega
  -- the entry (p, q) of block t sits at row 5000 t + p, column q of the array
  have hi : ((cfg0.win 3).blk t).view.emb (ix2 p q) = (ix2 (⟨t.val * 5000 + p.val, hP⟩ : Fin 100000) q : S100000x128.Idx) := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  -- row p of the input block is row 5000 t + p of the input
  have h0 : ∀ k : Fin 128, xblk V c t (ix2 p k) = xarr V c (ix2 (⟨t.val * 5000 + p.val, hP⟩ : Fin 100000) k) := fun k => by
    show xarr V c (((cfg0.win 0).blk t).view.emb (ix2 p k)) = _
    refine congrArg (xarr V c) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  -- the weights' block is the whole matrix
  have h1 : ∀ k : Fin 128, wblk V c t (ix2 k q) = warr V c (ix2 k q) := fun k => by
    show warr V c (((cfg0.win 1).blk t).view.emb (ix2 k q)) = _
    refine congrArg (warr V c) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  -- the bias's block is its one row
  have h2 : bblk V c t (ix2 (0 : Fin 1) q) = barr V c (ix2 (0 : Fin 1) q) := by
    show barr V c (((cfg0.win 2).blk t).view.emb (ix2 (0 : Fin 1) q)) = _
    refine congrArg (barr V c) ?_
    funext a; apply Fin.ext
    match a with
    | ⟨0, _⟩ => show win0_2.index t (0 : Fin 2) * 1 + 1 * 0 = 0; omega
    | ⟨1, _⟩ => show win0_2.index t (1 : Fin 2) * 128 + 1 * q.val = q.val; omega
  show _ = result V c (((cfg0.win 3).blk t).view.emb (ix2 p q))
  rw [hi]
  show max ((∑ k : Fin 128, xblk V c t (ix2 p k) * wblk V c t (ix2 k q)) + bblk V c t (ix2 (0 : Fin 1) q)) 0
    = max ((∑ k : Fin 128, xarr V c (ix2 (⟨t.val * 5000 + p.val, hP⟩ : Fin 100000) k) * warr V c (ix2 k q)) + barr V c (ix2 (0 : Fin 1) q)) 0
  rw [h2, Finset.sum_congr rfl (fun k _ => by rw [h0 k, h1 k])]

/-- An index of the result array is in point t's block iff its row lies in the block's 5000 rows. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v37).slice (win0_3.rect t)).set ↔ _
  rw [View.set_slice_whole, Rect.mem_set_unit]
  exact Iff.rfl

/-- Every index of the result array lies in some point's block: row r in block r / 5000. -/
theorem covered (i : S100000x128.Idx) : ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  refine ⟨⟨(i 0).val / 5000, by omega⟩, flush0_3 _, ?_⟩
  rw [mem_block]
  obtain ⟨e30, e31, -⟩ := block_indices ⟨(i 0).val / 5000, by omega⟩
  intro a
  match a with
  | ⟨0, _⟩ => show win0_3.index _ (0 : Fin 2) * 5000 ≤ (i 0).val ∧ (i 0).val < win0_3.index _ (0 : Fin 2) * 5000 + 5000; rw [e30]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e31]; omega

/-- The result array at the region's end. -/
theorem final (c : Dev nD) : (dat0 V c).arrAt 3 cfg0.N = result V c :=
  (dat0 V c).arrAt_eq_of_cover 3 (result V c) (fun t _ => flushed_eq V c t) covered

end Cert.KernelIdeal.Reg0

end
-- ==== Proof.Region2.lean ====
/-
  The third product's region: what its result array holds when the region ends.

  The region walks the 100000 rows of its input in 20 blocks of 5000 rows.  At block t it reads rows
  5000 t … 5000 t + 4999 of the input, the whole 128 by 64 weight matrix and the one-row bias, and writes back
  the block's rows of the result: row p of the block against column q of the weights, plus the bias at q (this
  last layer has no clamp).  A row of that block is a row of the whole input, so what block t writes back is
  block t of ONE function of the whole arrays, `Dense.lin`; the 20 blocks tile the result array, which therefore
  ends holding it.
-/
import proofs.«134260_j32607391711820_1_alg».proof.Proof.Gen.KernelIdeal.Frame
import proofs.«134260_j32607391711820_1_alg».proof.Proof.Dense

set_option maxRecDepth 16384

noncomputable section

namespace Cert.KernelIdeal.Reg2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The value the body stores, at (p, q): the dense layer of the three loaded blocks. -/
theorem stored_apply (x0 : Vec Ideal S5000x128 .f32) (x1 : Vec Ideal S128x64 .f32) (x2 : Vec Ideal S1x64 .f32)
    (p : Fin 5000) (q : Fin 64) :
    k2_pay1 x0 x1 x2 (ix2 p q) = Dense.lin x0 x1 (fun c => x2 (ix2 (0 : Fin 1) c)) (ix2 p q) := by
  unfold k2_pay1
  exact Dense.block_apply dot_S5000x128_S128x64_S5000x64_1_0_0_1_n_n rfl rfl rfl rfl rfl rfl x0 x1 x2
    shapeCasts_S5000x128_S5000x128 shapeCasts_S1x64_S1x64 broadcasts_S1x64_S5000x64 bitsLt_bf16_f32 p q

/-- The arrays the region finds, and its three input blocks at point t, at their literal types. -/
abbrev xarr (c : Dev nD) : S100000x128.Idx → EReal := V c main_v71
abbrev warr (c : Dev nD) : S128x64.Idx → EReal := V c main_arg5
abbrev barr (c : Dev nD) : S1x64.Idx → EReal := V c main_v72
abbrev xblk (c : Dev nD) (t : Fin cfg2.N) : S5000x128.Idx → EReal := iblk2 V c 0 t
abbrev wblk (c : Dev nD) (t : Fin cfg2.N) : S128x64.Idx → EReal := iblk2 V c 1 t
abbrev bblk (c : Dev nD) (t : Fin cfg2.N) : S1x64.Idx → EReal := iblk2 V c 2 t

/-- The array the region leaves in its result: the dense layer of the arrays it found. -/
abbrev result (c : Dev nD) : S100000x64.Idx → EReal :=
  Dense.lin (xarr V c) (warr V c) (fun q => barr V c (ix2 (0 : Fin 1) q))

/-- The result window's block index at point t is (t, 0); the input window's is the same; the weights' and the
    bias's block is always the first. -/
theorem block_indices : ∀ t : Fin cfg2.N,
    win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- What point t writes back is block t of `result`. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x64) origin, View.ld_unit_zero (S := S1x64) origin]
  obtain ⟨e30, e31, e00, e01, e10, e11, e20, e21⟩ := block_indices t
  funext j
  obtain ⟨p, q, rfl⟩ : ∃ (p : Fin 5000) (q : Fin 64), j = ix2 p q := ⟨j 0, j 1, eq_ix2 j⟩
  refine (stored_apply (xblk V c t) (wblk V c t) (bblk V c t) p q).trans ?_
  have hN : cfg2.N = 20 := N_2
  have hP : t.val * 5000 + p.val < 100000 := by have := t.isLt; have := p.isLt; omega
  -- the entry (p, q) of block t sits at row 5000 t + p, column q of the array
  have hi : ((cfg2.win 3).blk t).view.emb (ix2 p q) = (ix2 (⟨t.val * 5000 + p.val, hP⟩ : Fin 100000) q : S100000x64.Idx) := by
    funext a; apply Fin.ext
    match a with
    | ⟨0, _⟩ => show win2_3.index t (0 : Fin 2) * 5000 + 1 * p.val = t.val * 5000 + p.val; omega
    | ⟨1, _⟩ => show win2_3.index t (1 : Fin 2) * 64 + 1 * q.val = q.val; omega
  -- row p of the input block is row 5000 t + p of the input
  have h0 : ∀ k : Fin 128, xblk V c t (ix2 p k) = xarr V c (ix2 (⟨t.val * 5000 + p.val, hP⟩ : Fin 100000) k) := fun k => by
    show xarr V c (((cfg2.win 0).blk t).view.emb (ix2 p k)) = _
    refine congrArg (xarr V c) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  -- the weights' block is the whole matrix
  have h1 : ∀ k : Fin 128, wblk V c t (ix2 k q) = warr V c (ix2 k q) := fun k => by
    show warr V c (((cfg2.win 1).blk t).view.emb (ix2 k q)) = _
    refine congrArg (warr V c) ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  -- the bias's block is its one row
  have h2 : bblk V c t (ix2 (0 : Fin 1) q) = barr V c (ix2 (0 : Fin 1) q) := by
    show barr V c (((cfg2.win 2).blk t).view.emb (ix2 (0 : Fin 1) q)) = _
    refine congrArg (barr V c) ?_
    funext a; apply Fin.ext
    match a with
    | ⟨0, _⟩ => show win2_2.index t (0 : Fin 2) * 1 + 1 * 0 = 0; omega
    | ⟨1, _⟩ => show win2_2.index t (1 : Fin 2) * 64 + 1 * q.val = q.val; omega
  show _ = result V c (((cfg2.win 3).blk t).view.emb (ix2 p q))
  rw [hi]
  show (∑ k : Fin 128, xblk V c t (ix2 p k) * wblk V c t (ix2 k q)) + bblk V c t (ix2 (0 : Fin 1) q)
    = (∑ k : Fin 128, xarr V c (ix2 (⟨t.val * 5000 + p.val, hP⟩ : Fin 100000) k) * warr V c (ix2 k q)) + barr V c (ix2 (0 : Fin 1) q)
  rw [h2, Finset.sum_congr rfl (fun k _ => by rw [h0 k, h1 k])]

/-- An index of the result array is in point t's block iff its row lies in the block's 5000 rows. -/
theorem mem_block (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v73).slice (win2_3.rect t)).set ↔ _
  rw [View.set_slice_whole, Rect.mem_set_unit]
  exact Iff.rfl

/-- Every index of the result array lies in some point's block: row r in block r / 5000. -/
theorem covered (i : S100000x64.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 64 := (i 1).isLt
  refine ⟨⟨(i 0).val / 5000, by omega⟩, flush2_3 _, ?_⟩
  rw [mem_block]
  obtain ⟨e30, e31, -⟩ := block_indices ⟨(i 0).val / 5000, by omega⟩
  intro a
  match a with
  | ⟨0, _⟩ => show win2_3.index _ (0 : Fin 2) * 5000 ≤ (i 0).val ∧ (i 0).val < win2_3.index _ (0 : Fin 2) * 5000 + 5000; rw [e30]; show (i 0).val / 5000 * 5000 ≤ (i 0).val ∧ (i 0).val < (i 0).val / 5000 * 5000 + 5000; omega
  | ⟨1, _⟩ => show win2_3.index _ (1 : Fin 2) * 64 ≤ (i 1).val ∧ (i 1).val < win2_3.index _ (1 : Fin 2) * 64 + 64; rw [e31]; omega

/-- The result array at the region's end. -/
theorem final (c : Dev nD) : (dat2 V c).arrAt 3 cfg2.N = result V c :=
  (dat2 V c).arrAt_eq_of_cover 3 (result V c) (fun t _ => flushed_eq V c t) covered

end Cert.KernelIdeal.Reg2

end
-- ==== Proof.HostChain.lean ====
/-
  The graph-convolution network's host side, as functions of arrays.

  Each of the three layers first normalises and aggregates its input over the graph: the rows of the input
  are scaled by the inverse square root of the source nodes' out-degrees, gathered along the edges (an edge's
  source index, a negative one wrapped once by the node count), summed into the edges' destination rows, and
  the sums scaled by the inverse square root of the destinations' in-degrees.  A degree is the number of edges
  at a node (a scatter-add of ones), and its inverse square root is taken of the degree clamped below by one,
  and replaced by zero where the node has no edge.

  `isq` is that degree normalisation as a function of an index array, and `agg` the aggregation as a function
  of a layer's input, the two normalisations and the two index arrays.  The lemmas read the program's stretches
  of host operations back as these functions of the buffers the stretch starts from, and say which buffers a
  stretch leaves alone.
-/
import proofs.«134260_j32607391711820_1_alg».proof.Proof.Gen.KernelIdeal.Launch
import Idealize.ShloMosaic.Lib.StableHlo.Run

set_option maxRecDepth 16384

noncomputable section

namespace Cert.KernelIdeal.Net

open Cert.KernelIdeal Cert.KernelIdeal.Gen Idealize.ShloMosaic Idealize.ShloMosaic.TcCoe Idealize.SL.Sem Idealize.ShloMosaic.StableHlo

variable {F : FTy → Type} [FloatOps F]

/-- The inverse square root of each node's degree under the index array `idx` (zero at a node of degree zero). -/
def isq (idx : (⟨S1600000, .i32⟩ : BufTy).Contents (Elt F)) : (⟨S100000, .f32⟩ : BufTy).Contents (Elt F) :=
  select (cmpf (F := F) .ogt (Host.scatterAdd scatter_S100000_S1600000x1_S1600000_n_0_0_1 (broadcastInDim S100000 ![] bcast_S_S100000 (constant (F := F) S_ .f32 0x00000000#32)) (broadcastInDim S1600000x1 ![0] bcast_S1600000_S1600000x1_0 idx) (broadcastInDim S1600000 ![] bcast_S_S1600000 (constant (F := F) S_ .f32 0x3F800000#32))) (broadcastInDim S100000 ![] bcast_S_S100000 (constant (F := F) S_ .f32 0x00000000#32))) (Host.rsqrt (maximumf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 idx) (broadcastInDim S1600000 ![] bcast_S_S1600000 (constant (F := F) S_ .f32 0x3F800000#32))) (broadcastInDim S100000 ![] bcast_S_S100000 (constant (F := F) S_ .f32 0x3F800000#32)))) (broadcastInDim S100000 ![] bcast_S_S100000 (id (constant (F := F) S_ .f32 0x00000000#32)))

/-- One layer's aggregation: `h` scaled by `io` row by row, gathered along `src`, summed into `dst`'s rows, scaled by `ii`. -/
def agg (h : (⟨S100000x128, .f32⟩ : BufTy).Contents (Elt F)) (io ii : (⟨S100000, .f32⟩ : BufTy).Contents (Elt F))
    (src dst : (⟨S1600000, .i32⟩ : BufTy).Contents (Elt F)) : (⟨S100000x128, .f32⟩ : BufTy).Contents (Elt F) :=
  mulf (Host.scatterAdd scatter_S100000x128_S1600000x1_S1600000x128_1_0_0_1 (broadcastInDim S100000x128 ![] bcast_S_S100000x128 (constant (F := F) S_ .f32 0x00000000#32)) (broadcastInDim S1600000x1 ![0] bcast_S1600000_S1600000x1_0 dst) (Host.gather gather_S100000x128_S1600000x1_S1600000x128_1_0_n_n_0_1_1128 (mulf h (broadcastInDim S100000x128 ![0, 1] bcast_S100000x1_S100000x128_0_1 (broadcastInDim S100000x1 ![0] bcast_S100000_S100000x1_0 io))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 ii))

variable (W : Valuation τ sig (Elt F))

/-! ## The stretch before the first layer's product: both normalisations and the first aggregation -/

/-- The five stretches before the first product, run from `W`. -/
abbrev pre : Valuation τ sig (Elt F) :=
  after hostOps0_4 (after hostOps0_3 (after hostOps0_2 (after hostOps0_1 (after hostOps0 W))))

set_option maxHeartbeats 4000000 in
theorem pre_v9 : pre W (Proc.devRef .tc main_v9) = isq (W (Proc.devRef .tc main_arg7)) := by
  dsimp only [pre, hostOps0, hostOps0_1, hostOps0_2, hostOps0_3, hostOps0_4]; after_results_simp; (try simp only [TRef.ofBuf, TRef.toBuf, cast_eq]); rfl

set_option maxHeartbeats 4000000 in
theorem pre_v19 : pre W (Proc.devRef .tc main_v19) = isq (W (Proc.devRef .tc main_arg8)) := by
  dsimp only [pre, hostOps0, hostOps0_1, hostOps0_2, hostOps0_3, hostOps0_4]; after_results_simp; (try simp only [TRef.ofBuf, TRef.toBuf, cast_eq]); rfl

set_option maxHeartbeats 4000000 in
theorem pre_v35 : pre W (Proc.devRef .tc main_v35)
    = agg (W (Proc.devRef .tc main_arg0)) (isq (W (Proc.devRef .tc main_arg7))) (isq (W (Proc.devRef .tc main_arg8)))
        (W (Proc.devRef .tc main_arg7)) (W (Proc.devRef .tc main_arg8)) := by
  dsimp only [pre, hostOps0, hostOps0_1, hostOps0_2, hostOps0_3, hostOps0_4]; after_results_simp; (try simp only [TRef.ofBuf, TRef.toBuf, cast_eq]); rfl

theorem pre_v36 : pre W (Proc.devRef .tc main_v36) = shapeCast S1x128 (W (Proc.devRef .tc main_arg2)) shapeCasts_S128_S1x128 := by
  dsimp only [pre, hostOps0, hostOps0_1, hostOps0_2, hostOps0_3, hostOps0_4]; after_results_simp; (try simp only [TRef.ofBuf, TRef.toBuf, cast_eq]); rfl

theorem pre_arg1 : pre W (Proc.devRef .tc main_arg1) = W (Proc.devRef .tc main_arg1) := by
  dsimp only [pre, hostOps0, hostOps0_1, hostOps0_2, hostOps0_3, hostOps0_4]; after_results
theorem pre_arg3 : pre W (Proc.devRef .tc main_arg3) = W (Proc.devRef .tc main_arg3) := by
  dsimp only [pre, hostOps0, hostOps0_1, hostOps0_2, hostOps0_3, hostOps0_4]; after_results
theorem pre_arg4 : pre W (Proc.devRef .tc main_arg4) = W (Proc.devRef .tc main_arg4) := by
  dsimp only [pre, hostOps0, hostOps0_1, hostOps0_2, hostOps0_3, hostOps0_4]; after_results
theorem pre_arg5 : pre W (Proc.devRef .tc main_arg5) = W (Proc.devRef .tc main_arg5) := by
  dsimp only [pre, hostOps0, hostOps0_1, hostOps0_2, hostOps0_3, hostOps0_4]; after_results
theorem pre_arg6 : pre W (Proc.devRef .tc main_arg6) = W (Proc.devRef .tc main_arg6) := by
  dsimp only [pre, hostOps0, hostOps0_1, hostOps0_2, hostOps0_3, hostOps0_4]; after_results
theorem pre_arg7 : pre W (Proc.devRef .tc main_arg7) = W (Proc.devRef .tc main_arg7) := by
  dsimp only [pre, hostOps0, hostOps0_1, hostOps0_2, hostOps0_3, hostOps0_4]; after_results
theorem pre_arg8 : pre W (Proc.devRef .tc main_arg8) = W (Proc.devRef .tc main_arg8) := by
  dsimp only [pre, hostOps0, hostOps0_1, hostOps0_2, hostOps0_3, hostOps0_4]; after_results

/-! ## The stretch between the first and the second product -/

set_option maxHeartbeats 4000000 in
theorem mid1_v53 : after hostOps1 W (Proc.devRef .tc main_v53)
    = agg (W (Proc.devRef .tc main_v37)) (W (Proc.devRef .tc main_v9)) (W (Proc.devRef .tc main_v19))
        (W (Proc.devRef .tc main_arg7)) (W (Proc.devRef .tc main_arg8)) := by
  dsimp only [hostOps1]; after_results_simp; rfl

theorem mid1_v54 : after hostOps1 W (Proc.devRef .tc main_v54) = shapeCast S1x128 (W (Proc.devRef .tc main_arg4)) shapeCasts_S128_S1x128 := by
  dsimp only [hostOps1]; after_results_simp; rfl

theorem mid1_arg3 : after hostOps1 W (Proc.devRef .tc main_arg3) = W (Proc.devRef .tc main_arg3) := by
  dsimp only [hostOps1]; after_results
theorem mid1_arg5 : after hostOps1 W (Proc.devRef .tc main_arg5) = W (Proc.devRef .tc main_arg5) := by
  dsimp only [hostOps1]; after_results
theorem mid1_arg6 : after hostOps1 W (Proc.devRef .tc main_arg6) = W (Proc.devRef .tc main_arg6) := by
  dsimp only [hostOps1]; after_results
theorem mid1_arg7 : after hostOps1 W (Proc.devRef .tc main_arg7) = W (Proc.devRef .tc main_arg7) := by
  dsimp only [hostOps1]; after_results
theorem mid1_arg8 : after hostOps1 W (Proc.devRef .tc main_arg8) = W (Proc.devRef .tc main_arg8) := by
  dsimp only [hostOps1]; after_results
theorem mid1_v9 : after hostOps1 W (Proc.devRef .tc main_v9) = W (Proc.devRef .tc main_v9) := by
  dsimp only [hostOps1]; after_results
theorem mid1_v19 : after hostOps1 W (Proc.devRef .tc main_v19) = W (Proc.devRef .tc main_v19) := by
  dsimp only [hostOps1]; after_results

/-! ## The stretch between the second and the third product -/

set_option maxHeartbeats 4000000 in
theorem mid2_v71 : after hostOps2 W (Proc.devRef .tc main_v71)
    = agg (W (Proc.devRef .tc main_v55)) (W (Proc.devRef .tc main_v9)) (W (Proc.devRef .tc main_v19))
        (W (Proc.devRef .tc main_arg7)) (W (Proc.devRef .tc main_arg8)) := by
  dsimp only [hostOps2]; after_results_simp; rfl

theorem mid2_v72 : after hostOps2 W (Proc.devRef .tc main_v72) = shapeCast S1x64 (W (Proc.devRef .tc main_arg6)) shapeCasts_S64_S1x64 := by
  dsimp only [hostOps2]; after_results_simp; rfl

theorem mid2_arg5 : after hostOps2 W (Proc.devRef .tc main_arg5) = W (Proc.devRef .tc main_arg5) := by
  dsimp only [hostOps2]; after_results

end Cert.KernelIdeal.Net

end
-- ==== Proof.Net.lean ====
/-
  The whole network as one function of its nine argument arrays, over the extended reals.

  Three layers: each aggregates its input over the graph (`agg`, with the two degree normalisations `isq` of
  the source and destination index arrays) and then applies a dense layer; the first two layers clamp at zero,
  the last does not.
-/
import proofs.«134260_j32607391711820_1_alg».proof.Proof.HostChain
import proofs.«134260_j32607391711820_1_alg».proof.Proof.Dense

noncomputable section

namespace Cert.KernelIdeal.Net

open Cert.KernelIdeal Idealize.ShloMosaic Idealize.ShloMosaic.ValueIdx

/-- The network's result array from its arguments. -/
def net (x : S100000x128.Idx → EReal) (w1 : S128x128.Idx → EReal) (b1 : S128.Idx → EReal)
    (w2 : S128x128.Idx → EReal) (b2 : S128.Idx → EReal) (w3 : S128x64.Idx → EReal) (b3 : S64.Idx → EReal)
    (src dst : (⟨S1600000, .i32⟩ : BufTy).Contents (Elt Ideal)) : S100000x64.Idx → EReal :=
  Dense.lin
    (agg (F := Ideal)
      (Dense.linRelu
        (agg (F := Ideal)
          (Dense.linRelu (agg (F := Ideal) x (isq src) (isq dst) src dst) w1 (fun q => b1 (ix1 q)))
          (isq src) (isq dst) src dst)
        w2 (fun q => b2 (ix1 q)))
      (isq src) (isq dst) src dst)
    w3 (fun q => b3 (ix1 q))

end Cert.KernelIdeal.Net

end
-- ==== Proof.KernelValue.lean ====
/-
  The kernel program's result is the network function of its arguments.

  The program's buffers are followed from the launch to the return, boundary by boundary: a stretch of host
  operations computes an aggregation (`HostChain`), a region leaves a dense layer of the arrays it found in its
  result array (`Region0` … `Region2`) and every other buffer as it was.  The two degree normalisations and the
  index arrays are computed (or given) before the first region and only read afterwards, so they are the same at
  every later boundary; a bias reaches its region as a one-row array, whose entry (0, q) is the vector's entry q.
-/
import proofs.«134260_j32607391711820_1_alg».proof.Proof.Region0
import proofs.«134260_j32607391711820_1_alg».proof.Proof.Region1
import proofs.«134260_j32607391711820_1_alg».proof.Proof.Region2
import proofs.«134260_j32607391711820_1_alg».proof.Proof.Net

set_option maxRecDepth 16384

noncomputable section

namespace Cert.KernelIdeal.Net

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg) (c : Dev nD)

/-! ## The arguments and the layers' values, at their literal types -/

abbrev aX : S100000x128.Idx → EReal := m ((c : Thread nD τ).loc main_arg0)
abbrev aW1 : S128x128.Idx → EReal := m ((c : Thread nD τ).loc main_arg1)
abbrev aB1 : S128.Idx → EReal := m ((c : Thread nD τ).loc main_arg2)
abbrev aW2 : S128x128.Idx → EReal := m ((c : Thread nD τ).loc main_arg3)
abbrev aB2 : S128.Idx → EReal := m ((c : Thread nD τ).loc main_arg4)
abbrev aW3 : S128x64.Idx → EReal := m ((c : Thread nD τ).loc main_arg5)
abbrev aB3 : S64.Idx → EReal := m ((c : Thread nD τ).loc main_arg6)
abbrev aS : (⟨S1600000, .i32⟩ : BufTy).Contents (Elt Ideal) := m ((c : Thread nD τ).loc main_arg7)
abbrev aD : (⟨S1600000, .i32⟩ : BufTy).Contents (Elt Ideal) := m ((c : Thread nD τ).loc main_arg8)

/-- The first layer's aggregated input. -/
abbrev A1 : S100000x128.Idx → EReal := agg (F := Ideal) (aX m c) (isq (aS m c)) (isq (aD m c)) (aS m c) (aD m c)
/-- The first layer's result. -/
abbrev H1 : S100000x128.Idx → EReal := Dense.linRelu (A1 m c) (aW1 m c) (fun q => aB1 m c (ix1 q))
/-- The second layer's aggregated input. -/
abbrev A2 : S100000x128.Idx → EReal := agg (F := Ideal) (H1 m c) (isq (aS m c)) (isq (aD m c)) (aS m c) (aD m c)
/-- The second layer's result. -/
abbrev H2 : S100000x128.Idx → EReal := Dense.linRelu (A2 m c) (aW2 m c) (fun q => aB2 m c (ix1 q))
/-- The third layer's aggregated input. -/
abbrev A3 : S100000x128.Idx → EReal := agg (F := Ideal) (H2 m c) (isq (aS m c)) (isq (aD m c)) (aS m c) (aD m c)

/-- A bias vector cast to one row, read at (0, q). -/
theorem row128 (b : S128.Idx → EReal) (q : Fin 128) :
    shapeCast S1x128 b shapeCasts_S128_S1x128 (ix2 (0 : Fin 1) q) = b (ix1 q) :=
  shapeCast_a_1a_apply b shapeCasts_S128_S1x128 0 q
theorem row64 (b : S64.Idx → EReal) (q : Fin 64) :
    shapeCast S1x64 b shapeCasts_S64_S1x64 (ix2 (0 : Fin 1) q) = b (ix1 q) :=
  shapeCast_a_1a_apply b shapeCasts_S64_S1x64 0 q

/-! ## At the first region's entry -/

theorem w5_v35 : W5 m ρ c (Proc.devRef .tc main_v35) = A1 m c := pre_v35 (W0 m ρ c)
theorem w5_v36 : W5 m ρ c (Proc.devRef .tc main_v36) = shapeCast S1x128 (aB1 m c) shapeCasts_S128_S1x128 := pre_v36 (W0 m ρ c)
theorem w5_arg1 : W5 m ρ c (Proc.devRef .tc main_arg1) = aW1 m c := pre_arg1 (W0 m ρ c)
theorem w5_v9 : W5 m ρ c (Proc.devRef .tc main_v9) = isq (aS m c) := pre_v9 (W0 m ρ c)
theorem w5_v19 : W5 m ρ c (Proc.devRef .tc main_v19) = isq (aD m c) := pre_v19 (W0 m ρ c)
theorem w5_arg3 : W5 m ρ c (Proc.devRef .tc main_arg3) = aW2 m c := pre_arg3 (W0 m ρ c)
theorem w5_arg4 : W5 m ρ c (Proc.devRef .tc main_arg4) = aB2 m c := pre_arg4 (W0 m ρ c)
theorem w5_arg5 : W5 m ρ c (Proc.devRef .tc main_arg5) = aW3 m c := pre_arg5 (W0 m ρ c)
theorem w5_arg6 : W5 m ρ c (Proc.devRef .tc main_arg6) = aB3 m c := pre_arg6 (W0 m ρ c)
theorem w5_arg7 : W5 m ρ c (Proc.devRef .tc main_arg7) = aS m c := pre_arg7 (W0 m ρ c)
theorem w5_arg8 : W5 m ρ c (Proc.devRef .tc main_arg8) = aD m c := pre_arg8 (W0 m ρ c)

/-! ## At the first region's exit -/

theorem w6_v37 : W6 m ρ c (Proc.devRef .tc main_v37) = H1 m c := by
  refine (W6_arr m ρ c 3).trans ?_
  refine (Reg0.final (V5 m ρ) c).trans ?_
  have e0 : Reg0.xarr (V5 m ρ) c = A1 m c := w5_v35 m ρ c
  have e1 : Reg0.warr (V5 m ρ) c = aW1 m c := w5_arg1 m ρ c
  have e2 : Reg0.barr (V5 m ρ) c = shapeCast S1x128 (aB1 m c) shapeCasts_S128_S1x128 := w5_v36 m ρ c
  show Dense.linRelu (Reg0.xarr (V5 m ρ) c) (Reg0.warr (V5 m ρ) c) (fun q => Reg0.barr (V5 m ρ) c (ix2 (0 : Fin 1) q)) = _
  rw [e0, e1, e2]
  exact congrArg (Dense.linRelu (A1 m c) (aW1 m c)) (funext fun q => row128 (aB1 m c) q)

theorem w6_v9 : W6 m ρ c (Proc.devRef .tc main_v9) = isq (aS m c) := (W6_of_ne m ρ c main_v9 (by decide)).trans (w5_v9 m ρ c)
theorem w6_v19 : W6 m ρ c (Proc.devRef .tc main_v19) = isq (aD m c) := (W6_of_ne m ρ c main_v19 (by decide)).trans (w5_v19 m ρ c)
theorem w6_arg3 : W6 m ρ c (Proc.devRef .tc main_arg3) = aW2 m c := (W6_of_ne m ρ c main_arg3 (by decide)).trans (w5_arg3 m ρ c)
theorem w6_arg4 : W6 m ρ c (Proc.devRef .tc main_arg4) = aB2 m c := (W6_of_ne m ρ c main_arg4 (by decide)).trans (w5_arg4 m ρ c)
theorem w6_arg5 : W6 m ρ c (Proc.devRef .tc main_arg5) = aW3 m c := (W6_of_ne m ρ c main_arg5 (by decide)).trans (w5_arg5 m ρ c)
theorem w6_arg6 : W6 m ρ c (Proc.devRef .tc main_arg6) = aB3 m c := (W6_of_ne m ρ c main_arg6 (by decide)).trans (w5_arg6 m ρ c)
theorem w6_arg7 : W6 m ρ c (Proc.devRef .tc main_arg7) = aS m c := (W6_of_ne m ρ c main_arg7 (by decide)).trans (w5_arg7 m ρ c)
theorem w6_arg8 : W6 m ρ c (Proc.devRef .tc main_arg8) = aD m c := (W6_of_ne m ρ c main_arg8 (by decide)).trans (w5_arg8 m ρ c)

/-! ## At the second region's entry -/

theorem w7_v53 : W7 m ρ c (Proc.devRef .tc main_v53) = A2 m c := by
  refine (mid1_v53 (W6 m ρ c)).trans ?_
  rw [w6_v37, w6_v9, w6_v19, w6_arg7, w6_arg8]
theorem w7_v54 : W7 m ρ c (Proc.devRef .tc main_v54) = shapeCast S1x128 (aB2 m c) shapeCasts_S128_S1x128 := by
  refine (mid1_v54 (W6 m ρ c)).trans ?_
  rw [w6_arg4]
theorem w7_arg3 : W7 m ρ c (Proc.devRef .tc main_arg3) = aW2 m c := (mid1_arg3 (W6 m ρ c)).trans (w6_arg3 m ρ c)
theorem w7_arg5 : W7 m ρ c (Proc.devRef .tc main_arg5) = aW3 m c := (mid1_arg5 (W6 m ρ c)).trans (w6_arg5 m ρ c)
theorem w7_arg6 : W7 m ρ c (Proc.devRef .tc main_arg6) = aB3 m c := (mid1_arg6 (W6 m ρ c)).trans (w6_arg6 m ρ c)
theorem w7_arg7 : W7 m ρ c (Proc.devRef .tc main_arg7) = aS m c := (mid1_arg7 (W6 m ρ c)).trans (w6_arg7 m ρ c)
theorem w7_arg8 : W7 m ρ c (Proc.devRef .tc main_arg8) = aD m c := (mid1_arg8 (W6 m ρ c)).trans (w6_arg8 m ρ c)
theorem w7_v9 : W7 m ρ c (Proc.devRef .tc main_v9) = isq (aS m c) := (mid1_v9 (W6 m ρ c)).trans (w6_v9 m ρ c)
theorem w7_v19 : W7 m ρ c (Proc.devRef .tc main_v19) = isq (aD m c) := (mid1_v19 (W6 m ρ c)).trans (w6_v19 m ρ c)

/-! ## At the second region's exit -/

theorem w8_v55 : W8 m ρ c (Proc.devRef .tc main_v55) = H2 m c := by
  refine (W8_arr m ρ c 3).trans ?_
  refine (Reg1.final (V7 m ρ) c).trans ?_
  have e0 : Reg1.xarr (V7 m ρ) c = A2 m c := w7_v53 m ρ c
  have e1 : Reg1.warr (V7 m ρ) c = aW2 m c := w7_arg3 m ρ c
  have e2 : Reg1.barr (V7 m ρ) c = shapeCast S1x128 (aB2 m c) shapeCasts_S128_S1x128 := w7_v54 m ρ c
  show Dense.linRelu (Reg1.xarr (V7 m ρ) c) (Reg1.warr (V7 m ρ) c) (fun q => Reg1.barr (V7 m ρ) c (ix2 (0 : Fin 1) q)) = _
  rw [e0, e1, e2]
  exact congrArg (Dense.linRelu (A2 m c) (aW2 m c)) (funext fun q => row128 (aB2 m c) q)

theorem w8_v9 : W8 m ρ c (Proc.devRef .tc main_v9) = isq (aS m c) := (W8_of_ne m ρ c main_v9 (by decide)).trans (w7_v9 m ρ c)
theorem w8_v19 : W8 m ρ c (Proc.devRef .tc main_v19) = isq (aD m c) := (W8_of_ne m ρ c main_v19 (by decide)).trans (w7_v19 m ρ c)
theorem w8_arg5 : W8 m ρ c (Proc.devRef .tc main_arg5) = aW3 m c := (W8_of_ne m ρ c main_arg5 (by decide)).trans (w7_arg5 m ρ c)
theorem w8_arg6 : W8 m ρ c (Proc.devRef .tc main_arg6) = aB3 m c := (W8_of_ne m ρ c main_arg6 (by decide)).trans (w7_arg6 m ρ c)
theorem w8_arg7 : W8 m ρ c (Proc.devRef .tc main_arg7) = aS m c := (W8_of_ne m ρ c main_arg7 (by decide)).trans (w7_arg7 m ρ c)
theorem w8_arg8 : W8 m ρ c (Proc.devRef .tc main_arg8) = aD m c := (W8_of_ne m ρ c main_arg8 (by decide)).trans (w7_arg8 m ρ c)

/-! ## At the third region's entry -/

theorem w9_v71 : W9 m ρ c (Proc.devRef .tc main_v71) = A3 m c := by
  refine (mid2_v71 (W8 m ρ c)).trans ?_
  rw [w8_v55, w8_v9, w8_v19, w8_arg7, w8_arg8]
theorem w9_v72 : W9 m ρ c (Proc.devRef .tc main_v72) = shapeCast S1x64 (aB3 m c) shapeCasts_S64_S1x64 := by
  refine (mid2_v72 (W8 m ρ c)).trans ?_
  rw [w8_arg6]
theorem w9_arg5 : W9 m ρ c (Proc.devRef .tc main_arg5) = aW3 m c := (mid2_arg5 (W8 m ρ c)).trans (w8_arg5 m ρ c)

/-! ## At the return -/

/-- The result array at the last boundary is the network function of the arguments. -/
theorem last_eq : W10 m ρ c (Proc.devRef .tc main_v73)
    = net (aX m c) (aW1 m c) (aB1 m c) (aW2 m c) (aB2 m c) (aW3 m c) (aB3 m c) (aS m c) (aD m c) := by
  refine (W10_arr m ρ c 3).trans ?_
  refine (Reg2.final (V9 m ρ) c).trans ?_
  have e0 : Reg2.xarr (V9 m ρ) c = A3 m c := w9_v71 m ρ c
  have e1 : Reg2.warr (V9 m ρ) c = aW3 m c := w9_arg5 m ρ c
  have e2 : Reg2.barr (V9 m ρ) c = shapeCast S1x64 (aB3 m c) shapeCasts_S64_S1x64 := w9_v72 m ρ c
  show Dense.lin (Reg2.xarr (V9 m ρ) c) (Reg2.warr (V9 m ρ) c) (fun q => Reg2.barr (V9 m ρ) c (ix2 (0 : Fin 1) q)) = _
  rw [e0, e1, e2]
  exact congrArg (Dense.lin (A3 m c) (aW3 m c)) (funext fun q => row64 (aB3 m c) q)

end Cert.KernelIdeal.Net

end
-- ==== Proof.RefValue.lean ====
/-
  The reference's result is the network function of its arguments.

  The reference program's result term spells the same three layers: the aggregation of each layer's input is the
  same chain of host operations as the kernel program's (`isq`, `agg`: restated here over the reference's own
  dimension records and shown equal to the kernel program's), and each dense layer is a general contraction of
  axis 1 against axis 0 plus the bias broadcast over the rows, clamped at zero in the first two layers, which
  index by index is `Dense.lin` / `Dense.linRelu`.
-/
import proofs.«134260_j32607391711820_1_alg».proof.Proof.RefRun
import proofs.«134260_j32607391711820_1_alg».proof.Proof.Net

set_option maxRecDepth 16384

noncomputable section

namespace Cert.ReferenceIdeal.Net

open Cert.ReferenceIdeal Cert.ReferenceIdeal.Gen Idealize.ShloMosaic Idealize.ShloMosaic.TcCoe Idealize.SL.Sem Idealize.ShloMosaic.ValueIdx

variable {F : FTy → Type} [FloatOps F]

/-- The inverse square root of each node's degree under the index array `idx` (zero at a node of degree zero). -/
def isq (idx : (⟨S1600000, .i32⟩ : BufTy).Contents (Elt F)) : (⟨S100000, .f32⟩ : BufTy).Contents (Elt F) :=
  select (cmpf (F := F) .ogt (Host.scatterAdd scatter_S100000_S1600000x1_S1600000_n_0_0_1 (broadcastInDim S100000 ![] bcast_S_S100000 (constant (F := F) S_ .f32 0x00000000#32)) (broadcastInDim S1600000x1 ![0] bcast_S1600000_S1600000x1_0 idx) (broadcastInDim S1600000 ![] bcast_S_S1600000 (constant (F := F) S_ .f32 0x3F800000#32))) (broadcastInDim S100000 ![] bcast_S_S100000 (constant (F := F) S_ .f32 0x00000000#32))) (Host.rsqrt (maximumf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 idx) (broadcastInDim S1600000 ![] bcast_S_S1600000 (constant (F := F) S_ .f32 0x3F800000#32))) (broadcastInDim S100000 ![] bcast_S_S100000 (constant (F := F) S_ .f32 0x3F800000#32)))) (broadcastInDim S100000 ![] bcast_S_S100000 (id (constant (F := F) S_ .f32 0x00000000#32)))

/-- One layer's aggregation: `h` scaled by `io` row by row, gathered along `src`, summed into `dst`'s rows, scaled by `ii`. -/
def agg (h : (⟨S100000x128, .f32⟩ : BufTy).Contents (Elt F)) (io ii : (⟨S100000, .f32⟩ : BufTy).Contents (Elt F))
    (src dst : (⟨S1600000, .i32⟩ : BufTy).Contents (Elt F)) : (⟨S100000x128, .f32⟩ : BufTy).Contents (Elt F) :=
  mulf (Host.scatterAdd scatter_S100000x128_S1600000x1_S1600000x128_1_0_0_1 (broadcastInDim S100000x128 ![] bcast_S_S100000x128 (constant (F := F) S_ .f32 0x00000000#32)) (broadcastInDim S1600000x1 ![0] bcast_S1600000_S1600000x1_0 dst) (Host.gather gather_S100000x128_S1600000x1_S1600000x128_1_0_n_n_0_1_1128 (mulf h (broadcastInDim S100000x128 ![0, 1] bcast_S100000x1_S100000x128_0_1 (broadcastInDim S100000x1 ![0] bcast_S100000_S100000x1_0 io))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 ii))

/-- A clamped dense layer in the reference's spelling. -/
def layerRelu (a : (⟨S100000x128, .f32⟩ : BufTy).Contents (Elt F)) (w : (⟨S128x128, .f32⟩ : BufTy).Contents (Elt F))
    (b : (⟨S128, .f32⟩ : BufTy).Contents (Elt F)) : (⟨S100000x128, .f32⟩ : BufTy).Contents (Elt F) :=
  maximumf (addf (Host.dotGeneral dot_S100000x128_S128x128_S100000x128_1_0_0_1_n_n none a w) (broadcastInDim S100000x128 ![0, 1] bcast_S1x128_S100000x128_0_1 (broadcastInDim S1x128 ![1] bcast_S128_S1x128_1 b))) (broadcastInDim S100000x128 ![] bcast_S_S100000x128 (constant (F := F) S_ .f32 0x00000000#32))

/-- The last dense layer in the reference's spelling. -/
def layerLast (a : (⟨S100000x128, .f32⟩ : BufTy).Contents (Elt F)) (w : (⟨S128x64, .f32⟩ : BufTy).Contents (Elt F))
    (b : (⟨S64, .f32⟩ : BufTy).Contents (Elt F)) : (⟨S100000x64, .f32⟩ : BufTy).Contents (Elt F) :=
  addf (Host.dotGeneral dot_S100000x128_S128x64_S100000x64_1_0_0_1_n_n none a w) (broadcastInDim S100000x64 ![0, 1] bcast_S1x64_S100000x64_0_1 (broadcastInDim S1x64 ![1] bcast_S64_S1x64_1 b))

/-- The reference's result term, layer by layer. -/
theorem res_layers (m : (ℓ : Loc nD τ sig) → Buf (Elt F) ℓ) (c : Dev nD) :
    ValueP.res_main_v81 m c
    = layerLast
        (agg
          (layerRelu
            (agg
              (layerRelu
                (agg (m ((c.tc : Thread nD τ).loc main_arg0)) (isq (m ((c.tc : Thread nD τ).loc main_arg7))) (isq (m ((c.tc : Thread nD τ).loc main_arg8)))
                  (m ((c.tc : Thread nD τ).loc main_arg7)) (m ((c.tc : Thread nD τ).loc main_arg8)))
                (m ((c.tc : Thread nD τ).loc main_arg1)) (m ((c.tc : Thread nD τ).loc main_arg2)))
              (isq (m ((c.tc : Thread nD τ).loc main_arg7))) (isq (m ((c.tc : Thread nD τ).loc main_arg8)))
              (m ((c.tc : Thread nD τ).loc main_arg7)) (m ((c.tc : Thread nD τ).loc main_arg8)))
            (m ((c.tc : Thread nD τ).loc main_arg3)) (m ((c.tc : Thread nD τ).loc main_arg4)))
          (isq (m ((c.tc : Thread nD τ).loc main_arg7))) (isq (m ((c.tc : Thread nD τ).loc main_arg8)))
          (m ((c.tc : Thread nD τ).loc main_arg7)) (m ((c.tc : Thread nD τ).loc main_arg8)))
        (m ((c.tc : Thread nD τ).loc main_arg5)) (m ((c.tc : Thread nD τ).loc main_arg6)) := by
  unfold ValueP.res_main_v81
  rfl

/-- The two programs' degree normalisations are one function. -/
theorem isq_kernel (idx : (⟨S1600000, .i32⟩ : BufTy).Contents (Elt F)) : isq idx = Cert.KernelIdeal.Net.isq idx := rfl

/-- The two programs' aggregations are one function. -/
theorem agg_kernel (h : (⟨S100000x128, .f32⟩ : BufTy).Contents (Elt F)) (io ii : (⟨S100000, .f32⟩ : BufTy).Contents (Elt F))
    (src dst : (⟨S1600000, .i32⟩ : BufTy).Contents (Elt F)) : agg h io ii src dst = Cert.KernelIdeal.Net.agg h io ii src dst := rfl

/-- The reference's clamped layer, index by index. -/
theorem layerRelu_eq (a : FVec Ideal S100000x128 .f32) (w : FVec Ideal S128x128 .f32) (b : FVec Ideal S128 .f32) :
    layerRelu (F := Ideal) a w b = Dense.linRelu a w (fun q => b (ix1 q)) := by
  funext i
  obtain ⟨p, q, rfl⟩ : ∃ (p : Fin 100000) (q : Fin 128), i = ix2 p q := ⟨i 0, i 1, eq_ix2 i⟩
  have h := Dense.whole_apply dot_S100000x128_S128x128_S100000x128_1_0_0_1_n_n rfl rfl rfl rfl rfl rfl a w b
    ![1] rfl bcast_S128_S1x128_1 ![0, 1] rfl rfl bcast_S1x128_S100000x128_0_1 p q
  unfold layerRelu
  show max _ _ = max _ 0
  refine congrArg₂ max h ?_
  show Ideal.ofBits .f32 0x00000000#32 = 0
  exact Ideal.ofBits_zero_f32

/-- The reference's last layer, index by index. -/
theorem layerLast_eq (a : FVec Ideal S100000x128 .f32) (w : FVec Ideal S128x64 .f32) (b : FVec Ideal S64 .f32) :
    layerLast (F := Ideal) a w b = Dense.lin a w (fun q => b (ix1 q)) := by
  funext i
  obtain ⟨p, q, rfl⟩ : ∃ (p : Fin 100000) (q : Fin 64), i = ix2 p q := ⟨i 0, i 1, eq_ix2 i⟩
  unfold layerLast
  exact Dense.whole_apply dot_S100000x128_S128x64_S100000x64_1_0_0_1_n_n rfl rfl rfl rfl rfl rfl a w b
    ![1] rfl bcast_S64_S1x64_1 ![0, 1] rfl rfl bcast_S1x64_S100000x64_0_1 p q

/-- The reference's result is the network function of its arguments. -/
theorem res_net (m : (ℓ : Loc nD τ sig) → Buf (Elt Ideal) ℓ) (c : Dev nD) :
    ValueP.res_main_v81 m c
    = Cert.KernelIdeal.Net.net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  rw [res_layers]
  simp only [layerLast_eq, layerRelu_eq, agg_kernel, isq_kernel]
  rfl

end Cert.ReferenceIdeal.Net

end
-- ==== Proof.lean ====
/-
  A three-layer graph convolution network: the kernel program against its reference, over the extended reals.

  Both programs compute, for node features x, weights W1, W2, W3, biases b1, b2, b3 and the edges' source and
  destination index arrays, three layers  h ↦ act ((D_in^(-1/2) A^T D_out^(-1/2) h) W + b)  with act the clamp
  at zero in the first two layers and the identity in the last.  The graph side of a layer (the two degree
  normalisations, the gather along the edges and the scatter-add into the destination rows) is the same chain
  of host operations in both programs.  The dense side differs in spelling only: the kernel program computes it
  in 20 blocks of 5000 rows, each block a product of operands passed through a change of float format into a
  zero accumulator; the reference in one general contraction.  On the extended reals a change of format is the
  identity and both products are the same finite sum over the 128 contracted positions, so the two results are
  one function of the arguments (`Net.net`).  No law that needs finiteness is used: the precondition is never
  opened.

  The three frame claims: the two kernel programs' are the generated frame certificates; the reference's is its
  run with the result dropped.  The ideal pass rewrote nothing, so the idealization claim is trivial.
-/
import proofs.«134260_j32607391711820_1_alg».proof.Defs
import proofs.«134260_j32607391711820_1_alg».proof.Proof.Gen.Kernel
import proofs.«134260_j32607391711820_1_alg».proof.Proof.Gen.Kernel.Skeleton
import proofs.«134260_j32607391711820_1_alg».proof.Proof.Gen.Kernel.Launch
import proofs.«134260_j32607391711820_1_alg».proof.Proof.Gen.Kernel.Points
import proofs.«134260_j32607391711820_1_alg».proof.Proof.Gen.Kernel.Frame
import proofs.«134260_j32607391711820_1_alg».proof.Proof.Gen.KernelIdeal
import proofs.«134260_j32607391711820_1_alg».proof.Proof.Gen.KernelIdeal.Skeleton
import proofs.«134260_j32607391711820_1_alg».proof.Proof.Gen.KernelIdeal.Launch
import proofs.«134260_j32607391711820_1_alg».proof.Proof.Gen.KernelIdeal.Points
import proofs.«134260_j32607391711820_1_alg».proof.Proof.Gen.KernelIdeal.Frame
import proofs.«134260_j32607391711820_1_alg».proof.Proof.Gen.ReferenceIdeal
import proofs.«134260_j32607391711820_1_alg».proof.Proof.Gen.Pre_finite_inputs
import proofs.«134260_j32607391711820_1_alg».proof.Proof.KernelRun
import proofs.«134260_j32607391711820_1_alg».proof.Proof.KernelValue
import proofs.«134260_j32607391711820_1_alg».proof.Proof.RefValue
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the nine arguments both programs end with the network function of those
    arguments in their result arrays. -/
theorem algebraic : Cert.algebraic_KernelIdeal_ReferenceIdeal := by
  intro m ρ m' ρ' _ hagree
  refine ⟨fun c => Cert.KernelIdeal.Net.net (Cert.KernelIdeal.Net.aX m c) (Cert.KernelIdeal.Net.aW1 m c) (Cert.KernelIdeal.Net.aB1 m c)
      (Cert.KernelIdeal.Net.aW2 m c) (Cert.KernelIdeal.Net.aB2 m c) (Cert.KernelIdeal.Net.aW3 m c) (Cert.KernelIdeal.Net.aB3 m c)
      (Cert.KernelIdeal.Net.aS m c) (Cert.KernelIdeal.Net.aD m c), ?_, ?_⟩
  · exact (θ_run Cert.KernelIdeal.defs _ _).mono
      (fun _ h c => ⟨(h c).1.trans (Cert.KernelIdeal.Net.last_eq m ρ c), (h c).2⟩)
      (Cert.KernelIdeal.Gen.run_last (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8⟩ := hagree c
    rw [Cert.ReferenceIdeal.Net.res_net m' c, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
